-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S5636096 : Shape := ⟨1, ![5636096]⟩
abbrev S11008x1 : Shape := ⟨2, ![11008, 1]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S11008x1 : S_.BroadcastsInDim S11008x1 (![] : Fin 0 → Fin S11008x1.rank)
  reducesTo_S11008x1_S_d0_1 : S11008x1.ReducesTo [0, 1] S_

variable [Facts]

def fn {F : FTy → Type} [FloatOps F] (main_arg0 : FVec F S64x4096 .f32) (main_arg1 : IVec S5636096 32) (main_arg2 : FVec F S11008x1 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  main_v8
-- ==== Kernel.lean ====
abbrev S64x4096 : Shape := ⟨2, ![64, 4096]⟩
abbrev S5636096 : Shape := ⟨1, ![5636096]⟩
abbrev S11008x1 : Shape := ⟨2, ![11008, 1]⟩
abbrev S11008x512 : Shape := ⟨2, ![11008, 512]⟩
abbrev S1x11008 : Shape := ⟨2, ![1, 11008]⟩
abbrev S64x512x8 : Shape := ⟨3, ![64, 512, 8]⟩
abbrev S64x8x512 : Shape := ⟨3, ![64, 8, 512]⟩
abbrev S_ : Shape := ⟨0, ![]⟩
abbrev S64 : Shape := ⟨1, ![64]⟩
abbrev S64x1 : Shape := ⟨2, ![64, 1]⟩
abbrev S64x11008 : Shape := ⟨2, ![64, 11008]⟩
abbrev S256x512 : Shape := ⟨2, ![256, 512]⟩
abbrev S1x256 : Shape := ⟨2, ![1, 256]⟩
abbrev S64x256 : Shape := ⟨2, ![64, 256]⟩
abbrev S256x1x512 : Shape := ⟨3, ![256, 1, 512]⟩
abbrev S1x8x1 : Shape := ⟨3, ![1, 8, 1]⟩
abbrev S256x8x512 : Shape := ⟨3, ![256, 8, 512]⟩
abbrev S64x1x512 : Shape := ⟨3, ![64, 1, 512]⟩
abbrev S64x512 : Shape := ⟨2, ![64, 512]⟩

abbrev nBuf : Space → Nat
  | .hbm => 12
  | .vmem => 8
  | .smem => 0
  | _ => 0

abbrev bufTy : (tb : Table) → Fin (tcTables nBuf tb) → BufTy
  | .hbm, ⟨0, _⟩ => ⟨S64x4096, .f32⟩
  | .hbm, ⟨1, _⟩ => ⟨S5636096, .i32⟩
  | .hbm, ⟨2, _⟩ => ⟨S11008x1, .f32⟩
  | .hbm, ⟨3, _⟩ => ⟨S11008x512, .i32⟩
  | .hbm, ⟨4, _⟩ => ⟨S1x11008, .f32⟩
  | .hbm, ⟨5, _⟩ => ⟨S64x512x8, .f32⟩
  | .hbm, ⟨6, _⟩ => ⟨S64x8x512, .f32⟩
  | .hbm, ⟨7, _⟩ => ⟨S64x8x512, .bf16⟩
  | .hbm, ⟨8, _⟩ => ⟨S_, .f32⟩
  | .hbm, ⟨9, _⟩ => ⟨S64, .f32⟩
  | .hbm, ⟨10, _⟩ => ⟨S64x1, .f32⟩
  | .hbm, ⟨11, _⟩ => ⟨S64x11008, .f32⟩
  | .local _ .vmem, ⟨0, _⟩ => ⟨S64x8x512, .bf16⟩
  | .local _ .vmem, ⟨1, _⟩ => ⟨S256x512, .i32⟩
  | .local _ .vmem, ⟨2, _⟩ => ⟨S256x512, .i32⟩
  | .local _ .vmem, ⟨3, _⟩ => ⟨S1x256, .f32⟩
  | .local _ .vmem, ⟨4, _⟩ => ⟨S1x256, .f32⟩
  | .local _ .vmem, ⟨5, _⟩ => ⟨S64x1, .f32⟩
  | .local _ .vmem, ⟨6, _⟩ => ⟨S64x256, .f32⟩
  | .local _ .vmem, ⟨7, _⟩ => ⟨S64x256, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![43], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x8x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S5636096_S11008x512 : S5636096.ShapeCasts S11008x512
  shapeCasts_S11008x1_S1x11008 : S11008x1.ShapeCasts S1x11008
  shapeCasts_S64x4096_S64x512x8 : S64x4096.ShapeCasts S64x512x8
  transposes_S64x512x8_S64x8x512_0_2_1 : S64x512x8.Transposes [0, 2, 1] S64x8x512
  bitsLt_bf16_f32 : FTy.bits .bf16 < FTy.bits .f32
  reducesTo_S64x4096_S64_d1 : S64x4096.ReducesTo [1] S64
  h_S_ : 0 < S_.numel
  bcast_S64_S64x1_0 : S64.BroadcastsInDim S64x1 (![0] : Fin 1 → Fin S64x1.rank)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S256x512_S256x1x512 : S256x512.ShapeCasts S256x1x512
  iota_S1x8x1_d1_w32 : S1x8x1.Iotas .tc 32 [1]
  broadcasts_S256x1x512_S256x8x512 : S256x1x512.Broadcasts S256x8x512
  broadcasts_S1x8x1_S256x8x512 : S1x8x1.Broadcasts S256x8x512
  inb_S64x8x512_S64x8x512_0_0_0 : ∀ a, (![0, 0, 0] : Fin 3 → Nat) a + S64x8x512.size a ≤ S64x8x512.size a
  h_S64x8x512 : 0 < S64x8x512.numel
  shapeCasts_S64x8x512_S64x8x512 : S64x8x512.ShapeCasts S64x8x512
  slices_S64x8x512_o0_0_0_S64x1x512 : S64x8x512.Slices ![0, 0, 0] S64x1x512
  shapeCasts_S64x1x512_S64x512 : S64x1x512.ShapeCasts S64x512
  slices_S256x8x512_o0_0_0_S256x1x512 : S256x8x512.Slices ![0, 0, 0] S256x1x512
  shapeCasts_S256x1x512_S256x512 : S256x1x512.ShapeCasts S256x512
  slices_S64x8x512_o0_1_0_S64x1x512 : S64x8x512.Slices ![0, 1, 0] S64x1x512
  slices_S256x8x512_o0_1_0_S256x1x512 : S256x8x512.Slices ![0, 1, 0] S256x1x512
  slices_S64x8x512_o0_2_0_S64x1x512 : S64x8x512.Slices ![0, 2, 0] S64x1x512
  slices_S256x8x512_o0_2_0_S256x1x512 : S256x8x512.Slices ![0, 2, 0] S256x1x512
  slices_S64x8x512_o0_3_0_S64x1x512 : S64x8x512.Slices ![0, 3, 0] S64x1x512
  slices_S256x8x512_o0_3_0_S256x1x512 : S256x8x512.Slices ![0, 3, 0] S256x1x512
  slices_S64x8x512_o0_4_0_S64x1x512 : S64x8x512.Slices ![0, 4, 0] S64x1x512
  slices_S256x8x512_o0_4_0_S256x1x512 : S256x8x512.Slices ![0, 4, 0] S256x1x512
  slices_S64x8x512_o0_5_0_S64x1x512 : S64x8x512.Slices ![0, 5, 0] S64x1x512
  slices_S256x8x512_o0_5_0_S256x1x512 : S256x8x512.Slices ![0, 5, 0] S256x1x512
  slices_S64x8x512_o0_6_0_S64x1x512 : S64x8x512.Slices ![0, 6, 0] S64x1x512
  slices_S256x8x512_o0_6_0_S256x1x512 : S256x8x512.Slices ![0, 6, 0] S256x1x512
  slices_S64x8x512_o0_7_0_S64x1x512 : S64x8x512.Slices ![0, 7, 0] S64x1x512
  slices_S256x8x512_o0_7_0_S256x1x512 : S256x8x512.Slices ![0, 7, 0] S256x1x512
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x256 : S64x1.Broadcasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S64x256_S64x256_0_0 : ∀ a, (![0, 0] : Fin 2 → Nat) a + S64x256.size a ≤ S64x256.size a
  h_S64x256 : 0 < S64x256.numel
  dot_S64x512_S256x512_S64x256_1_1_0_0_n_n_wf : DotDims.WF S64x512 S256x512 S64x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x8x512.size a ≤ S64x8x512.size a
  hwx0_0 : ∀ i : grid0.Coords, EltTy.bits .bf16 = 32 ∨ (Rect.block (s := S64x8x512) S64x8x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S11008x512.size a
  hwx0_1 : ∀ i : grid0.Coords, EltTy.bits .i32 = 32 ∨ (Rect.block (s := S11008x512) S256x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x11008.size a
  hwx0_4 : ∀ i : grid0.Coords, EltTy.bits .f32 = 32 ∨ (Rect.block (s := S64x11008) S64x256.size (cc0_transform_4 i) (hinb0_4 i)).WholeWords (EltTy.packing .f32)

variable [Facts₀]

def dot_S64x512_S256x512_S64x256_1_1_0_0_n_n : DotDims S64x512 S256x512 S64x256 where
  lhsContracting := [1]
  rhsContracting := [1]
  lhsNonContracting := [0]
  rhsNonContracting := [0]
  lhsBatch := []
  rhsBatch := []
  wf := dot_S64x512_S256x512_S64x256_1_1_0_0_n_n_wf

abbrev win0_0 : Pipeline.Window sig grid0 :=
  Pipeline.Window.ofSpec (Memref.whole main_v4) S64x8x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x4096 : Shape := ⟨2, ![64, 4096]⟩
abbrev S5636096 : Shape := ⟨1, ![5636096]⟩
abbrev S11008x1 : Shape := ⟨2, ![11008, 1]⟩
abbrev S8 : Shape := ⟨1, ![8]⟩
abbrev S_ : Shape := ⟨0, ![]⟩
abbrev S5636096x1 : Shape := ⟨2, ![5636096, 1]⟩
abbrev S1x8 : Shape := ⟨2, ![1, 8]⟩
abbrev S5636096x8 : Shape := ⟨2, ![5636096, 8]⟩
abbrev S45088768 : Shape := ⟨1, ![45088768]⟩
abbrev S11008x4096 : Shape := ⟨2, ![11008, 4096]⟩
abbrev S4096x11008 : Shape := ⟨2, ![4096, 11008]⟩
abbrev S64x11008 : Shape := ⟨2, ![64, 11008]⟩

abbrev nBuf : Space → Nat
  | .hbm => 31
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S5636096, .i32⟩
  | .hbm, ⟨2, _⟩ => ⟨S11008x1, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S5636096x1, .i32⟩
  | .hbm, ⟨11, _⟩ => ⟨S1x8, .i32⟩
  | .hbm, ⟨12, _⟩ => ⟨S5636096x8, .i32⟩
  | .hbm, ⟨13, _⟩ => ⟨S5636096x8, .i32⟩
  | .hbm, ⟨14, _⟩ => ⟨S5636096x8, .i32⟩
  | .hbm, ⟨15, _⟩ => ⟨S_, .i32⟩
  | .hbm, ⟨16, _⟩ => ⟨S5636096x8, .i32⟩
  | .hbm, ⟨17, _⟩ => ⟨S5636096x8, .i32⟩
  | .hbm, ⟨18, _⟩ => ⟨S45088768, .i32⟩
  | .hbm, ⟨19, _⟩ => ⟨S_, .i32⟩
  | .hbm, ⟨20, _⟩ => ⟨S45088768, .i32⟩
  | .hbm, ⟨21, _⟩ => ⟨S45088768, .i32⟩
  | .hbm, ⟨22, _⟩ => ⟨S_, .i32⟩
  | .hbm, ⟨23, _⟩ => ⟨S45088768, .i32⟩
  | .hbm, ⟨24, _⟩ => ⟨S45088768, .i32⟩
  | .hbm, ⟨25, _⟩ => ⟨S11008x4096, .i32⟩
  | .hbm, ⟨26, _⟩ => ⟨S11008x4096, .f32⟩
  | .hbm, ⟨27, _⟩ => ⟨S11008x4096, .f32⟩
  | .hbm, ⟨28, _⟩ => ⟨S11008x4096, .f32⟩
  | .hbm, ⟨29, _⟩ => ⟨S4096x11008, .f32⟩
  | .hbm, ⟨30, _⟩ => ⟨S64x11008, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S5636096_S5636096x1_0 : S5636096.BroadcastsInDim S5636096x1 (![0] : Fin 1 → Fin S5636096x1.rank)
  bcast_S8_S1x8_1 : S8.BroadcastsInDim S1x8 (![1] : Fin 1 → Fin S1x8.rank)
  bcast_S5636096x1_S5636096x8_0_1 : S5636096x1.BroadcastsInDim S5636096x8 (![0, 1] : Fin 2 → Fin S5636096x8.rank)
  bcast_S1x8_S5636096x8_0_1 : S1x8.BroadcastsInDim S5636096x8 (![0, 1] : Fin 2 → Fin S5636096x8.rank)
  bcast_S_S5636096x8 : S_.BroadcastsInDim S5636096x8 (![] : Fin 0 → Fin S5636096x8.rank)
  shapeCasts_S5636096x8_S45088768 : S5636096x8.ShapeCasts S45088768
  bcast_S_S45088768 : S_.BroadcastsInDim S45088768 (![] : Fin 0 → Fin S45088768.rank)
  shapeCasts_S45088768_S11008x4096 : S45088768.ShapeCasts S11008x4096
  bcast_S11008x1_S11008x4096_0_1 : S11008x1.BroadcastsInDim S11008x4096 (![0, 1] : Fin 2 → Fin S11008x4096.rank)
  transposes_S11008x4096_S4096x11008_1_0 : S11008x4096.Transposes [1, 0] S4096x11008
  dot_S64x4096_S4096x11008_S64x11008_1_0_0_1_n_n_wf : DotDims.WF S64x4096 S4096x11008 S64x11008 [1] [0] [0] [1] [] []

variable [Facts₀]

def dot_S64x4096_S4096x11008_S64x11008_1_0_0_1_n_n : DotDims S64x4096 S4096x11008 S64x11008 where
  lhsContracting := [1]
  rhsContracting := [0]
  lhsNonContracting := [0]
  rhsNonContracting := [1]
  lhsBatch := []
  rhsBatch := []
  wf := dot_S64x4096_S4096x11008_S64x11008_1_0_0_1_n_n_wf

class Facts : Prop extends Facts₀ where

variable [Facts]
-- ==== Proof.Spec.lean ====
/-
  A one-bit linear layer, as arithmetic. A weight matrix of signs ±1 is stored eight signs to a word: output row `o` owns
  the 512 words `o·512 … o·512 + 511`, and column `i = 8n + k` of that row is bit `7 − k` of word `n` (the most significant of
  the low eight bits first). Writing `b ∈ {0, 1}` for that bit, the sign is `2b − 1`, and the layer's entry `(t, o)` is

      ∑ᵢ x[t, i] · ((2 bᵢ − 1) · s[o]).

  The same entry can be reached without ever forming a sign: contract `x` against the bits themselves, column class by
  column class (`k = 0 … 7`, each a sum over the 512 words), double, take off the plain row sum of `x`, and scale:

      (2 · ∑ₖ ∑ₙ x[t, 8n + k] · b[8n + k] − ∑ᵢ x[t, i]) · s[o].

  The two agree because `x · ((2b − 1) · s) = (2 (x · b) − x) · s` and a sum over `i` is the double sum over `(k, n)`. Both steps
  distribute a product over a sum, which on the extended reals is only sound away from the infinities: the statement is
  for finite `x` and `s` (the bits are `0` or `1`, so nothing else can be infinite), and the proof passes through the reals.
  The arrays are read through accessors indexed by natural numbers, so that index arithmetic is linear arithmetic over ℕ.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.BitLinear

open Idealize.ShloMosaic Idealize.ShloMosaic.ValueIdx

/-! ## The arrays, read at natural-number coordinates -/

abbrev SX : Shape := ⟨2, ![64, 4096]⟩
abbrev SB : Shape := ⟨1, ![5636096]⟩
abbrev SS : Shape := ⟨2, ![11008, 1]⟩
abbrev SO : Shape := ⟨2, ![64, 11008]⟩

/-- The activations at row `t`, column `i` (zero outside the array, where it is never read). -/
def xN (x : SX.Idx → EReal) (t i : ℕ) : EReal :=
  if h : t < 64 ∧ i < 4096 then x (ix2 ⟨t, h.1⟩ ⟨i, h.2⟩) else 0

theorem xN_eq (x : SX.Idx → EReal) (j : SX.Idx) : x j = xN x (j 0).val (j 1).val := by
  unfold xN
  rw [dif_pos ⟨(j 0).isLt, (j 1).isLt⟩]
  exact congrArg x (eq_ix2 j)

/-- Packed word number `a`. -/
def wN (bp : SB.Idx → BitVec 32) (a : ℕ) : BitVec 32 :=
  if h : a < 5636096 then bp (ix1 ⟨a, h⟩) else 0#32

theorem wN_eq (bp : SB.Idx → BitVec 32) (j : SB.Idx) : bp j = wN bp (j 0).val := by
  unfold wN
  rw [dif_pos (show (j 0).val < 5636096 from (j 0).isLt)]
  exact congrArg bp (eq_ix1 j)

/-- The scale of output row `o`. -/
def sN (sc : SS.Idx → EReal) (o : ℕ) : EReal :=
  if h : o < 11008 then sc (ix2 ⟨o, h⟩ ⟨0, Nat.one_pos⟩) else 0

theorem sN_eq (sc : SS.Idx → EReal) (j : SS.Idx) : sc j = sN sc (j 0).val := by
  unfold sN
  rw [dif_pos (show (j 0).val < 11008 from (j 0).isLt)]
  refine congrArg sc ((eq_ix2 j).trans ?_)
  have h1 : j 1 = ⟨0, Nat.one_pos⟩ := Fin.ext (by have h : (j 1).val < 1 := (j 1).isLt; show (j 1).val = 0; omega)
  rw [h1]
  rfl

/-! ## One bit of a word -/

/-- Bit `7 − k` of a word, as a word: shift right (arithmetically) by `7 − k` and keep the lowest bit. -/
def bitN (w : BitVec 32) (k : ℕ) : BitVec 32 :=
  IntOp.andi (IntOp.shrsi .vector w (IntOp.subi 7#32 (BitVec.ofNat 32 k))) 1#32

/-- Keeping the lowest bit leaves the word `0` or the word `1`. -/
theorem andi_one_cases (w : BitVec 32) : IntOp.andi w 1#32 = 0#32 ∨ IntOp.andi w 1#32 = 1#32 := by
  unfold IntOp.andi
  have h : (w &&& 1#32).toNat = w.toNat % 2 := by
    rw [BitVec.toNat_and]
    exact Nat.and_one_is_mod _
  rcases Nat.mod_two_eq_zero_or_one w.toNat with h0 | h1
  · left; apply BitVec.eq_of_toNat_eq; rw [h, h0]; rfl
  · right; apply BitVec.eq_of_toNat_eq; rw [h, h1]; rfl

theorem bitN_cases (w : BitVec 32) (k : ℕ) : bitN w k = 0#32 ∨ bitN w k = 1#32 := andi_one_cases _

/-- The bit as a real number, `0` or `1`. -/
def bR (w : BitVec 32) (k : ℕ) : ℝ := ((bitN w k).toInt : ℝ)

/-- The sign word `2b − 1`, computed in 32-bit words and read as a signed integer, is the real number `2b − 1`. -/
theorem toInt_sign (w : BitVec 32) (k : ℕ) :
    (((IntOp.subi (IntOp.muli (bitN w k) 2#32) 1#32).toInt : ℤ) : ℝ) = 2 * bR w k - 1 := by
  unfold bR
  rcases bitN_cases w k with h | h <;> rw [h]
  · have e1 : (IntOp.subi (IntOp.muli 0#32 2#32) 1#32).toInt = -1 := by decide
    have e2 : (0#32 : BitVec 32).toInt = 0 := by decide
    rw [e1, e2]; norm_num
  · have e1 : (IntOp.subi (IntOp.muli 1#32 2#32) 1#32).toInt = 1 := by decide
    have e2 : (1#32 : BitVec 32).toInt = 1 := by decide
    rw [e1, e2]; norm_num

/-- A shift amount spelled `7 + (−1)·k` in 32-bit words is `7 − k`. -/
theorem amount_eq (k : ℕ) : IntOp.addi 7#32 (IntOp.muli 4294967295#32 (BitVec.ofNat 32 k)) = IntOp.subi 7#32 (BitVec.ofNat 32 k) := by
  unfold IntOp.addi IntOp.muli IntOp.subi
  rw [show (4294967295#32 : BitVec 32) = -1#32 from by decide, BitVec.neg_mul, BitVec.one_mul, BitVec.sub_eq_add_neg]

/-- The arithmetic right shift is the same function on the host and on the vector unit. -/
theorem shrsi_host (x y : BitVec 32) : IntOp.shrsi .host x y = IntOp.shrsi .vector x y := by
  unfold IntOp.shrsi IntOp.cornerWord
  simp

/-! ## Sums -/

/-- The coercion of the reals into the extended reals carries finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the 4096 columns is the double sum over the eight bit positions and the 512 words. -/
theorem sum_cols (f : ℕ → ℝ) : ∑ i : Fin 4096, f i.val = ∑ k : Fin 8, ∑ n : Fin 512, f (n.val * 8 + k.val) := by
  have e : Fin 512 × Fin 8 ≃ Fin 4096 := finProdFinEquiv
  rw [← Equiv.sum_comp (finProdFinEquiv : Fin 512 × Fin 8 ≃ Fin 4096) (fun i => f i.val), Fintype.sum_prod_type, Finset.sum_comm]
  refine Finset.sum_congr rfl fun k _ => Finset.sum_congr rfl fun n _ => ?_
  refine congrArg f ?_
  show k.val + 8 * n.val = n.val * 8 + k.val
  omega

/-- The signed contraction is the doubled contraction against the bits less the plain sum, scaled — over the reals. -/
theorem signed_real (X β : ℕ → ℝ) (s : ℝ) :
    ∑ i : Fin 4096, X i.val * ((2 * β i.val - 1) * s)
      = (2 * ((∑ n : Fin 512, X (n.val * 8 + 0) * β (n.val * 8 + 0)) + (∑ n : Fin 512, X (n.val * 8 + 1) * β (n.val * 8 + 1))
          + (∑ n : Fin 512, X (n.val * 8 + 2) * β (n.val * 8 + 2)) + (∑ n : Fin 512, X (n.val * 8 + 3) * β (n.val * 8 + 3))
          + (∑ n : Fin 512, X (n.val * 8 + 4) * β (n.val * 8 + 4)) + (∑ n : Fin 512, X (n.val * 8 + 5) * β (n.val * 8 + 5))
          + (∑ n : Fin 512, X (n.val * 8 + 6) * β (n.val * 8 + 6)) + (∑ n : Fin 512, X (n.val * 8 + 7) * β (n.val * 8 + 7)))
        - ∑ i : Fin 4096, X i.val) * s := by
  have hsplit : ∑ i : Fin 4096, X i.val * β i.val
      = (∑ n : Fin 512, X (n.val * 8 + 0) * β (n.val * 8 + 0)) + (∑ n : Fin 512, X (n.val * 8 + 1) * β (n.val * 8 + 1))
          + (∑ n : Fin 512, X (n.val * 8 + 2) * β (n.val * 8 + 2)) + (∑ n : Fin 512, X (n.val * 8 + 3) * β (n.val * 8 + 3))
          + (∑ n : Fin 512, X (n.val * 8 + 4) * β (n.val * 8 + 4)) + (∑ n : Fin 512, X (n.val * 8 + 5) * β (n.val * 8 + 5))
          + (∑ n : Fin 512, X (n.val * 8 + 6) * β (n.val * 8 + 6)) + (∑ n : Fin 512, X (n.val * 8 + 7) * β (n.val * 8 + 7)) :=
    (sum_cols (fun i => X i * β i)).trans (Fin.sum_univ_eight _)
  calc ∑ i : Fin 4096, X i.val * ((2 * β i.val - 1) * s)
      = ∑ i : Fin 4096, (2 * s * (X i.val * β i.val) - s * X i.val) := Finset.sum_congr rfl fun i _ => by ring
    _ = 2 * s * ∑ i : Fin 4096, X i.val * β i.val - s * ∑ i : Fin 4096, X i.val := by
        rw [Finset.sum_sub_distrib, ← Finset.mul_sum, ← Finset.mul_sum]
    _ = _ := by rw [hsplit]; ring

/-! ## The two spellings of an entry, and their agreement on finite data -/

/-- The pattern `0x40000000` is the real number two. -/
theorem ofBits_two : Ideal.ofBits .f32 0x40000000#32 = ((2 : ℝ) : EReal) := by
  simp [Ideal.ofBits, Ideal.ieee, -EReal.coe_mul]; norm_num

/-- Entry `(t, o)` of the layer as a contraction against the signs: column `i` of row `o` sits in word
    `o·512 + i / 8` at bit position `i % 8`. -/
def refEntry (x : SX.Idx → EReal) (bp : SB.Idx → BitVec 32) (sc : SS.Idx → EReal) (t o : ℕ) : EReal :=
  ∑ i : Fin 4096, xN x t i.val
    * ((((IntOp.subi (IntOp.muli (bitN (wN bp (o * 512 + i.val / 8)) (i.val % 8)) 2#32) 1#32).toInt : ℝ) : EReal) * sN sc o)

/-- The contraction of row `t` against the bits at position `k` of the 512 words of row `o`. -/
def colSum (x : SX.Idx → EReal) (bp : SB.Idx → BitVec 32) (t o k : ℕ) : EReal :=
  ∑ n : Fin 512, xN x t (n.val * 8 + k) * ((bR (wN bp (o * 512 + n.val)) k : ℝ) : EReal)

/-- Entry `(t, o)` reached through the bits: the eight contractions added from zero in order, doubled, less the row sum of
    `x` (itself added from zero), scaled. -/
def kerEntry (x : SX.Idx → EReal) (bp : SB.Idx → BitVec 32) (sc : SS.Idx → EReal) (t o : ℕ) : EReal :=
  (Ideal.ofBits .f32 0x40000000#32
      * (0 + colSum x bp t o 0 + colSum x bp t o 1 + colSum x bp t o 2 + colSum x bp t o 3 + colSum x bp t o 4
          + colSum x bp t o 5 + colSum x bp t o 6 + colSum x bp t o 7)
    - (0 + ∑ i : Fin 4096, xN x t i.val)) * sN sc o

/-- The layer as one function of its three arrays. -/
def G (x : SX.Idx → EReal) (bp : SB.Idx → BitVec 32) (sc : SS.Idx → EReal) : SO.Idx → EReal :=
  fun j => kerEntry x bp sc (j 0).val (j 1).val

/-- On finite activations and scales the two spellings are one number. -/
theorem entries_eq (x : SX.Idx → EReal) (bp : SB.Idx → BitVec 32) (sc : SS.Idx → EReal)
    (hx : ∀ j, ∃ r : ℝ, x j = (r : EReal)) (hs : ∀ j, ∃ r : ℝ, sc j = (r : EReal)) (t o : ℕ) :
    refEntry x bp sc t o = kerEntry x bp sc t o := by
  choose xr hxr using hx
  choose sr hsr using hs
  obtain ⟨X, hXdef⟩ : ∃ X : ℕ → ℝ, ∀ i, X i = if h : t < 64 ∧ i < 4096 then xr (ix2 ⟨t, h.1⟩ ⟨i, h.2⟩) else 0 := ⟨_, fun _ => rfl⟩
  obtain ⟨s, hsdef⟩ : ∃ s : ℝ, s = if h : o < 11008 then sr (ix2 ⟨o, h⟩ ⟨0, Nat.one_pos⟩) else 0 := ⟨_, rfl⟩
  obtain ⟨β, hβdef⟩ : ∃ β : ℕ → ℝ, ∀ i, β i = bR (wN bp (o * 512 + i / 8)) (i % 8) := ⟨_, fun _ => rfl⟩
  have hX : ∀ i, xN x t i = (X i : EReal) := by
    intro i; unfold xN; rw [hXdef]
    split_ifs with h
    · exact hxr _
    · exact EReal.coe_zero.symm
  have hS : sN sc o = (s : EReal) := by
    unfold sN; rw [hsdef]
    split_ifs with h
    · exact hsr _
    · exact EReal.coe_zero.symm
  have hβ : ∀ (n : Fin 512) (k : ℕ), k < 8 → bR (wN bp (o * 512 + n.val)) k = β (n.val * 8 + k) := by
    intro n k hk
    rw [hβdef, show (n.val * 8 + k) / 8 = n.val by omega, show (n.val * 8 + k) % 8 = k by omega]
  have hL : refEntry x bp sc t o = ((∑ i : Fin 4096, X i.val * ((2 * β i.val - 1) * s) : ℝ) : EReal) := by
    unfold refEntry
    rw [coe_sum]
    refine Finset.sum_congr rfl fun i _ => ?_
    rw [hX, hS, toInt_sign, hβdef, EReal.coe_mul, EReal.coe_mul]
  have hC : ∀ k, k < 8 → colSum x bp t o k = ((∑ n : Fin 512, X (n.val * 8 + k) * β (n.val * 8 + k) : ℝ) : EReal) := by
    intro k hk
    unfold colSum
    rw [coe_sum]
    refine Finset.sum_congr rfl fun n _ => ?_
    rw [hX, hβ n k hk, EReal.coe_mul]
  have hRow : ∑ i : Fin 4096, xN x t i.val = ((∑ i : Fin 4096, X i.val : ℝ) : EReal) := by
    rw [coe_sum]; exact Finset.sum_congr rfl fun i _ => hX _
  rw [hL]
  unfold kerEntry
  rw [hC 0 (by omega), hC 1 (by omega), hC 2 (by omega), hC 3 (by omega), hC 4 (by omega), hC 5 (by omega), hC 6 (by omega),
    hC 7 (by omega), hRow, hS, ofBits_two, zero_add, zero_add, signed_real X β s]
  simp only [EReal.coe_mul, EReal.coe_sub, EReal.coe_add]

end Cert.BitLinear

end
-- ==== Proof.Finite.lean ====
/-
  What the precondition says: both conjuncts are "every entry's absolute value is below +∞", one for the activations
  and one for the scales. An extended real whose absolute value `max x (−x)` is below `⊤` is neither infinity, so it is a
  real number; the packed words are integers and are not constrained.
-/
import proofs.«402838_j22162031248001_2_alg».proof.Pre_finite_inputs
import proofs.«402838_j22162031248001_2_alg».proof.Proof.Gen.Pre_finite_inputs
import Idealize.ShloMosaic.Lib.ReduceAll
import Idealize.ShloMosaic.PureOps.Ideal

noncomputable section

namespace Cert.Pre_finite_inputs.Finite

open Idealize.ShloMosaic Cert.Pre_finite_inputs

instance : Subsingleton S_.Idx := ⟨fun a b => funext fun d => d.elim0⟩

/-- The pattern `0x7F800000` is `+∞`. -/
theorem inf_pattern : Ideal.ofBits .f32 0x7F800000#32 = ⊤ := by simp [Ideal.ofBits, Ideal.ieee]

/-- An extended real whose absolute value compares below `+∞` is a real number. -/
theorem real_of_abs_lt_top (x : EReal) (h : Ideal.cmp .olt (max x (-x)) ⊤ = 1#1) : ∃ r : ℝ, x = (r : EReal) := by
  induction x using EReal.rec with
  | bot => exfalso; simp [Ideal.cmp] at h
  | top => exfalso; simp [Ideal.cmp] at h
  | coe r => exact ⟨r, rfl⟩

/-- Under the precondition every activation and every scale is a real number. -/
theorem finite_of_pre (x : FVec Ideal S64x4096 .f32) (w : IVec S5636096 32) (s : FVec Ideal S11008x1 .f32)
    (h : fn (F := Ideal) x w s = fun _ => 1#1) :
    (∀ j, ∃ r : ℝ, x j = (r : EReal)) ∧ (∀ j, ∃ r : ℝ, s j = (r : EReal)) := by
  have h0 := congrFun h (fun a => a.elim0)
  dsimp only [fn] at h0
  obtain ⟨hx, hs⟩ := IntOp.andi_eq_one.1 h0
  refine ⟨fun j => ?_, fun j => ?_⟩
  · have e : Ideal.cmp .olt (max (x j) (-(x j))) (Ideal.ofBits .f32 0x7F800000#32) = 1#1 :=
      Host.reduce_andi_all _ _ _ _ _ hx j
    rw [inf_pattern] at e
    exact real_of_abs_lt_top _ e
  · have e : Ideal.cmp .olt (max (s j) (-(s j))) (Ideal.ofBits .f32 0x7F800000#32) = 1#1 :=
      Host.reduce_andi_all _ _ _ _ _ hs j
    rw [inf_pattern] at e
    exact real_of_abs_lt_top _ e

end Cert.Pre_finite_inputs.Finite

end
-- ==== Proof.RefValue.lean ====
/-
  The reference program, entry by entry. Its result at `(t, o)` is the contraction over the 4096 columns of `x[t, ·]` against
  the scaled sign matrix; the sign at `(o, i)` is element `o·4096 + i` of the flat list of unpacked bits, that is bit
  position `(o·4096 + i) % 8 = i % 8` of word `(o·4096 + i) / 8 = o·512 + i / 8`; the host's shift amount `7 + (−1)·k` is
  `7 − k`, and its arithmetic shift is the vector unit's. So the entry is `BitLinear.refEntry`.
-/
import proofs.«402838_j22162031248001_2_alg».proof.Proof.Gen.ReferenceIdeal.Read
import proofs.«402838_j22162031248001_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.BitLinear

/-- The reference's result at an index is the signed contraction of that row and that output row. -/
theorem ref_entry (x0 : (⟨S64x4096, .f32⟩ : BufTy).Contents (Elt Ideal)) (x1 : (⟨S5636096, .i32⟩ : BufTy).Contents (Elt Ideal))
    (x2 : (⟨S11008x1, .f32⟩ : BufTy).Contents (Elt Ideal)) (j : S64x11008.Idx) :
    val_main_v22 (F := Ideal) x0 x1 x2 j = refEntry x0 x1 x2 (j 0).val (j 1).val := by
  rw [val_main_v22_apply]
  unfold refEntry
  refine Finset.sum_congr rfl fun k _ => ?_
  rw [val_main_v21_apply, val_main_v20_apply, val_main_v18_apply, val_main_v19_apply, val_main_v17_apply, val_main_v16_apply,
    val_main_v14_apply, val_main_v15_apply, val_main_c_3_apply, val_main_v13_apply, val_main_c_2_apply, val_main_v12_apply,
    val_main_v11_apply, val_main_v10_apply, val_main_c_1_apply, val_main_v9_apply, val_main_v7_apply, val_main_v5_apply,
    val_main_v8_apply, val_main_v6_apply, val_main_v4_apply, val_main_v3_apply, val_main_c_0_apply, val_main_v2_apply,
    val_main_v1_apply, val_main_c_apply, val_main_v0_apply]
  rw [xN_eq x0, wN_eq x1, sN_eq x2, amount_eq, shrsi_host]
  have e1 : ((j 1).val * 4096 + k.val) / 8 = (j 1).val * 512 + k.val / 8 := by omega
  have e2 : ((j 1).val * 4096 + k.val) % 8 = k.val % 8 := by omega
  show xN x0 (j 0).val k.val
      * ((((IntOp.subi (IntOp.muli (bitN (wN x1 (((j 1).val * 4096 + k.val) / 8)) (((j 1).val * 4096 + k.val) % 8)) 2#32) 1#32).toInt : ℝ) : EReal)
        * sN x2 (j 1).val) = _
  rw [e1, e2]

end Cert.ReferenceIdeal.RefValue

end
-- ==== Proof.LibAttnOps.lean ====
/-
  General lemmas: four vector operations of an attention body read at an index on the extended reals, for any sizes.

  * a matrix product contracting the FIRST axis of both operands, `[K, M] × [K, N] → [M, N]` (queries against keys, both
    stored channels-first): entry `(p, q)` is `∑ k, l[k, p] · r[k, q]`;
  * a matrix product contracting the SECOND axis of both operands, `[M, K] × [N, K] → [M, N]` (weights against values stored
    channels-first): entry `(p, q)` is `∑ k, l[p, k] · r[q, k]`;
  * a row maximum, `multi_reduction <maximumf>` of an `[a, b]` array over axis 1: entry `i` is the fold of `max` from the
    accumulator's value over row `i`;
  * a row sum, `multi_reduction <add>` over axis 1: entry `i` is `∑ k, src[i, k]`.

  The two products go the same way: the record of dimension numbers is replaced by the literal one with those lists, the
  operand indices at a result index and a contraction index are read coordinate by coordinate (the contracted axis
  carries the contraction index's one coordinate, the kept axis the result's row or column), and the sum over the
  one-axis contraction shape is re-indexed by that axis's coordinate. The two reductions read the library's one-axis
  reduction laws at axis 1 of a rank-2 shape, where the index inserted over row `i` at coordinate `k` is `(i, k)`.
-/
import Idealize.ShloMosaic.PureOps.Ideal
import Idealize.ShloMosaic.PureOps.Ideal.Laws
import Idealize.ShloMosaic.Lib.ValueIdx

noncomputable section

namespace Cert.LibAttnOps

open Idealize.ShloMosaic Idealize.ShloMosaic.ValueIdx

/-! ## Contracting axis 0 of both operands -/

namespace TN

/-- The dimension numbers contracting axis 0 with axis 0 as a literal record; `wf` are their conditions. -/
abbrev dims (M K N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {M K N : Nat} (wf : DotDims.WF ⟨2, ![K, M]⟩ ⟨2, ![K, N]⟩ ⟨2, ![M, N]⟩ [0] [0] [1] [1] [] [])

/-- The left operand's row is the contracted coordinate. -/
theorem lhs_row (i : (⟨2, ![M, N]⟩ : Shape).Idx) (c : (dims M K N wf).contr.Idx) :
    ((dims M K N wf).lhsIdx i c 0).val = (c ⟨0, Nat.one_pos⟩).val :=
  (dims M K N wf).lhsIdx_val_of_single rfl i c

/-- The left operand's column is the result's row. -/
theorem lhs_col (i : (⟨2, ![M, N]⟩ : Shape).Idx) (c : (dims M K N wf).contr.Idx) :
    ((dims M K N wf).lhsIdx i c 1).val = (i 0).val := by
  rw [DotDims.lhsIdx, dif_neg (show ¬(1 : Fin 2) ∈ (dims M K N wf).lhsBatch from List.not_mem_nil),
    dif_pos (show (1 : Fin 2) ∈ (dims M K N wf).lhsNonContracting from List.mem_singleton.mpr rfl)]
  rfl

/-- The right operand's row is the contracted coordinate. -/
theorem rhs_row (i : (⟨2, ![M, N]⟩ : Shape).Idx) (c : (dims M K N wf).contr.Idx) :
    ((dims M K N wf).rhsIdx i c 0).val = (c ⟨0, Nat.one_pos⟩).val :=
  (dims M K N wf).rhsIdx_val_of_single rfl i c

/-- The right operand's column is the result's column. -/
theorem rhs_col (i : (⟨2, ![M, N]⟩ : Shape).Idx) (c : (dims M K N wf).contr.Idx) :
    ((dims M K N wf).rhsIdx i c 1).val = (i 1).val := by
  rw [DotDims.rhsIdx, dif_neg (show ¬(1 : Fin 2) ∈ (dims M K N wf).rhsBatch from List.not_mem_nil),
    dif_pos (show (1 : Fin 2) ∈ (dims M K N wf).rhsNonContracting from List.mem_singleton.mpr rfl)]
  rfl

/-- The product of the literal record at `(p, q)`. -/
theorem matmul_dims_apply {φ₁ φ₂ : FTy} (prec : Option ContractPrecision)
    (l : FVec Ideal ⟨2, ![K, M]⟩ φ₁) (r : FVec Ideal ⟨2, ![K, N]⟩ φ₂) (p : Fin M) (q : Fin N) :
    FloatOps.matmul (dims M K N wf) prec l r (constant ⟨2, ![M, N]⟩ .f32 0x00000000#32) (ix2 p q)
      = ∑ k : Fin K, l (ix2 k p) * r (ix2 k q) := by
  rw [Ideal.matmul_constant_zero_apply, ← Equiv.sum_comp (contrEquiv1 (dims M K N wf) K rfl rfl).symm]
  refine Finset.sum_congr rfl fun k _ => ?_
  have hk := contrEquiv1_symm_val (dims M K N wf) K rfl rfl k
  have el : (dims M K N wf).lhsIdx (ix2 p q) ((contrEquiv1 (dims M K N wf) K rfl rfl).symm k) = ix2 k p :=
    funext fun a => Fin.ext (by
      match a with
      | ⟨0, _⟩ => exact (lhs_row wf _ _).trans hk
      | ⟨1, _⟩ => exact lhs_col wf _ _)
  have er : (dims M K N wf).rhsIdx (ix2 p q) ((contrEquiv1 (dims M K N wf) K rfl rfl).symm k) = ix2 k q :=
    funext fun a => Fin.ext (by
      match a with
      | ⟨0, _⟩ => exact (rhs_row wf _ _).trans hk
      | ⟨1, _⟩ => exact rhs_col wf _ _)
  rw [el, er]

end TN

/-- `[K, M] × [K, N]` contracting axis 0 of both, into a zero accumulator, at `(p, q)`. -/
theorem matmul_tn_apply {M K N : Nat} {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision) (l : FVec Ideal ⟨2, ![K, M]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 k p) * r (ix2 k q) := by
  obtain ⟨lc, rc, ln, rn, lb, rb, wf⟩ := d
  simp only at h1 h2 h3 h4 h5 h6
  subst h1 h2 h3 h4 h5 h6
  exact TN.matmul_dims_apply wf prec l r p q

/-! ## Contracting axis 1 of both operands -/

namespace NT

/-- The dimension numbers contracting axis 1 with axis 1 as a literal record; `wf` are their conditions. -/
abbrev dims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row is the result's row. -/
theorem lhs_row (i : (⟨2, ![M, N]⟩ : Shape).Idx) (c : (dims M K N wf).contr.Idx) :
    ((dims M K N wf).lhsIdx i c 0).val = (i 0).val := by
  rw [DotDims.lhsIdx, dif_neg (show ¬(0 : Fin 2) ∈ (dims M K N wf).lhsBatch from List.not_mem_nil),
    dif_pos (show (0 : Fin 2) ∈ (dims M K N wf).lhsNonContracting from List.mem_singleton.mpr rfl)]
  rfl

/-- The left operand's column is the contracted coordinate. -/
theorem lhs_col (i : (⟨2, ![M, N]⟩ : Shape).Idx) (c : (dims M K N wf).contr.Idx) :
    ((dims M K N wf).lhsIdx i c 1).val = (c ⟨0, Nat.one_pos⟩).val :=
  (dims M K N wf).lhsIdx_val_of_single rfl i c

/-- The right operand's row is the result's column. -/
theorem rhs_row (i : (⟨2, ![M, N]⟩ : Shape).Idx) (c : (dims M K N wf).contr.Idx) :
    ((dims M K N wf).rhsIdx i c 0).val = (i 1).val := by
  rw [DotDims.rhsIdx, dif_neg (show ¬(0 : Fin 2) ∈ (dims M K N wf).rhsBatch from List.not_mem_nil),
    dif_pos (show (0 : Fin 2) ∈ (dims M K N wf).rhsNonContracting from List.mem_singleton.mpr rfl)]
  rfl

/-- The right operand's column is the contracted coordinate. -/
theorem rhs_col (i : (⟨2, ![M, N]⟩ : Shape).Idx) (c : (dims M K N wf).contr.Idx) :
    ((dims M K N wf).rhsIdx i c 1).val = (c ⟨0, Nat.one_pos⟩).val :=
  (dims M K N wf).rhsIdx_val_of_single rfl i c

/-- The product of the literal record at `(p, q)`. -/
theorem matmul_dims_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (dims M K N wf) prec l r (constant ⟨2, ![M, N]⟩ .f32 0x00000000#32) (ix2 p q)
      = ∑ k : Fin K, l (ix2 p k) * r (ix2 q k) := by
  rw [Ideal.matmul_constant_zero_apply, ← Equiv.sum_comp (contrEquiv1 (dims M K N wf) K rfl rfl).symm]
  refine Finset.sum_congr rfl fun k _ => ?_
  have hk := contrEquiv1_symm_val (dims M K N wf) K rfl rfl k
  have el : (dims M K N wf).lhsIdx (ix2 p q) ((contrEquiv1 (dims M K N wf) K rfl rfl).symm k) = ix2 p k :=
    funext fun a => Fin.ext (by
      match a with
      | ⟨0, _⟩ => exact lhs_row wf _ _
      | ⟨1, _⟩ => exact (lhs_col wf _ _).trans hk)
  have er : (dims M K N wf).rhsIdx (ix2 p q) ((contrEquiv1 (dims M K N wf) K rfl rfl).symm k) = ix2 q k :=
    funext fun a => Fin.ext (by
      match a with
      | ⟨0, _⟩ => exact rhs_row wf _ _
      | ⟨1, _⟩ => exact (rhs_col wf _ _).trans hk)
  rw [el, er]

end NT

/-- `[M, K] × [N, K]` contracting axis 1 of both, into a zero accumulator, at `(p, q)`. -/
theorem matmul_nt_apply {M K N : Nat} {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (l : FVec Ideal ⟨2, ![M, K]⟩ φ₁) (r : FVec Ideal ⟨2, ![N, K]⟩ φ₂)
    (p : Fin M) (q : Fin N) :
    FloatOps.matmul d prec l r (constant ⟨2, ![M, N]⟩ .f32 0x00000000#32) (ix2 p q)
      = ∑ k : Fin K, l (ix2 p k) * r (ix2 q k) := by
  obtain ⟨lc, rc, ln, rn, lb, rb, wf⟩ := d
  simp only at h1 h2 h3 h4 h5 h6
  subst h1 h2 h3 h4 h5 h6
  exact NT.matmul_dims_apply wf prec l r p q

/-! ## Reductions over axis 1 of a rank-2 array -/

/-- Over row `i`, the index inserted at coordinate `k` of axis 1 is `(i, k)`. -/
theorem lift_row {a b : Nat} (h : (⟨2, ![a, b]⟩ : Shape).Reduces [1] ⟨1, ![a]⟩) (i : Fin a) (k : Fin b) :
    h.lift (ix1 i) k = ix2 i k :=
  funext fun c => Fin.ext (by
    match c with
    | ⟨0, _⟩ => rfl
    | ⟨1, _⟩ => rfl)

/-- The row maximum of an `[a, b]` array at row `i`: the fold of `max` from the accumulator's value over the row. -/
theorem rowmax_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have e : (src ∘ h.lift (ix1 i) : Fin b → EReal) = fun k => src (ix2 i k) :=
    funext fun k => congrArg src (lift_row h i k)
  exact congrArg (fun f : Fin b → EReal => (Finset.univ : Finset (Fin b)).fold max (Ideal.ofBits φ acc) f) e

/-- The row sum of an `[a, b]` array at row `i`. -/
theorem rowsum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

end Cert.LibAttnOps

end
-- ==== Proof.KernelPayload.lean ====
/-
  What the kernel body stores, at one entry of its `[64, 256]` output block. The body reads four blocks: the re-laid
  activations `xb[t, k, n]`, a `[256, 512]` block of packed words `wb[q, n]`, the scales of the block's 256 output rows laid
  along a row, and the row sums of the activations as a column. It unpacks every word into its eight bits
  (`bits[q, k, n]` = bit `7 − k` of `wb[q, n]`), contracts `xb[·, k, ·]` against `bits[·, k, ·]` over `n` for each `k`, adds the
  eight products from zero, doubles, takes off the row sums and scales. Entry `(p, q)` is therefore

      (2 · (0 + ∑ₙ xb[p,0,n]·bits[q,0,n] + … + ∑ₙ xb[p,7,n]·bits[q,7,n]) − rowsum[p]) · scale[q].
-/
import proofs.«402838_j22162031248001_2_alg».proof.Proof.Gen.KernelIdeal.Skeleton
import proofs.«402838_j22162031248001_2_alg».proof.Proof.Spec
import proofs.«402838_j22162031248001_2_alg».proof.Proof.LibAttnOps
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx Cert.BitLinear

/-- Slab `k` of a `[A, 8, 512]` array, viewed `[A, 512]`, at `(p, n)` is the array at `(p, k, n)`. -/
theorem slab_apply {α : Type} {A : ℕ} (k : ℕ) (hk : k < 8) (X : (⟨3, ![A, 8, 512]⟩ : Shape).Idx → α)
    (hs : (⟨3, ![A, 8, 512]⟩ : Shape).Slices ![0, k, 0] ⟨3, ![A, 1, 512]⟩)
    (hc : (⟨3, ![A, 1, 512]⟩ : Shape).ShapeCasts ⟨2, ![A, 512]⟩) (p : Fin A) (n : Fin 512) :
    shapeCast ⟨2, ![A, 512]⟩ (extractStridedSlice ⟨3, ![A, 1, 512]⟩ ![0, k, 0] X hs) hc (ix2 p n) = X (ix3 p ⟨k, hk⟩ n) := by
  refine (shapeCast_apply _ hc (ix2 p n) (ix3 p ⟨0, Nat.one_pos⟩ n) ?_).trans ?_
  · rw [Shape.rowMajor_val_three, Shape.rowMajor_val_two]
    show (p.val * 1 + 0) * 512 + n.val = p.val * 512 + n.val
    omega
  · refine extractStridedSlice_apply _ X hs _ (ix3 p ⟨k, hk⟩ n) fun a => ?_
    match a with
    | ⟨0, _⟩ => show p.val = 0 + p.val; omega
    | ⟨1, _⟩ => show k = k + 0; omega
    | ⟨2, _⟩ => show n.val = 0 + n.val; omega

/-- The product of slab `k` of the activations with slab `k` of the bits, contracting the words. -/
theorem contract_k (k : ℕ) (hk : k < 8) (hX : S64x8x512.Slices ![0, k, 0] S64x1x512) (hB : S256x8x512.Slices ![0, k, 0] S256x1x512)
    (X : FVec Ideal S64x8x512 .bf16) (B : FVec Ideal S256x8x512 .bf16) (p : Fin 64) (q : Fin 256) :
    matmul dot_S64x512_S256x512_S64x256_1_1_0_0_n_n none
        (shapeCast S64x512 (extractStridedSlice S64x1x512 ![0, k, 0] X hX) shapeCasts_S64x1x512_S64x512)
        (shapeCast S256x512 (extractStridedSlice S256x1x512 ![0, k, 0] B hB) shapeCasts_S256x1x512_S256x512)
        (constant S64x256 .f32 0x00000000#32) (ix2 p q)
      = ∑ n : Fin 512, X (ix3 p ⟨k, hk⟩ n) * B (ix3 q ⟨k, hk⟩ n) := by
  refine (Cert.LibAttnOps.matmul_nt_apply dot_S64x512_S256x512_S64x256_1_1_0_0_n_n rfl rfl rfl rfl rfl rfl none _ _ p q).trans ?_
  refine Finset.sum_congr rfl fun n _ => ?_
  rw [slab_apply k hk X hX shapeCasts_S64x1x512_S64x512 p n, slab_apply k hk B hB shapeCasts_S256x1x512_S256x512 q n]

/-- The unpacked bits at `(q, k, n)`: bit `7 − k` of word `(q, n)` of the block, as a real number. -/
theorem bits_apply (x1 : Vec Ideal S256x512 .i32) (q : Fin 256) (k : Fin 8) (n : Fin 512) :
    k0_pay2 (F := Ideal) x1 (ix3 q k n) = ((bR (x1 (ix2 q n)) k.val : ℝ) : EReal) := by
  have hw : broadcastTo S256x8x512 (shapeCast S256x1x512 (shapeCast S256x512 x1 shapeCasts_S256x512_S256x512) shapeCasts_S256x512_S256x1x512)
      broadcasts_S256x1x512_S256x8x512 (ix3 q k n) = x1 (ix2 q n) := by
    rw [shapeCast_self]
    refine (broadcastTo_apply _ _ (ix3 q k n) (ix3 q ⟨0, Nat.one_pos⟩ n) fun a => ?_).trans ?_
    · match a with
      | ⟨0, _⟩ => show q.val = if (256 : ℕ) = 1 then 0 else q.val; rw [if_neg (by decide)]
      | ⟨1, _⟩ => show 0 = if (1 : ℕ) = 1 then 0 else k.val; rw [if_pos rfl]
      | ⟨2, _⟩ => show n.val = if (512 : ℕ) = 1 then 0 else n.val; rw [if_neg (by decide)]
    · refine shapeCast_apply _ _ _ (ix2 q n) ?_
      rw [Shape.rowMajor_val_two, Shape.rowMajor_val_three]
      show q.val * 512 + n.val = (q.val * 1 + 0) * 512 + n.val
      omega
  have ha : broadcastTo S256x8x512 (subi (broadcast S1x8x1 (7#32 : BitVec 32)) (iota .tc S1x8x1 32 [1] iota_S1x8x1_d1_w32))
      broadcasts_S1x8x1_S256x8x512 (ix3 q k n) = IntOp.subi 7#32 (BitVec.ofNat 32 k.val) := by
    refine (broadcastTo_apply _ _ (ix3 q k n) (ix3 ⟨0, Nat.one_pos⟩ k ⟨0, Nat.one_pos⟩) fun a => ?_).trans ?_
    · match a with
      | ⟨0, _⟩ => show 0 = if (1 : ℕ) = 1 then 0 else q.val; rw [if_pos rfl]
      | ⟨1, _⟩ => show k.val = if (8 : ℕ) = 1 then 0 else k.val; rw [if_neg (by decide)]
      | ⟨2, _⟩ => show 0 = if (1 : ℕ) = 1 then 0 else n.val; rw [if_pos rfl]
    · show IntOp.subi 7#32 (iota .tc S1x8x1 32 [1] iota_S1x8x1_d1_w32 (ix3 ⟨0, Nat.one_pos⟩ k ⟨0, Nat.one_pos⟩)) = _
      rw [iota_single_apply]
  unfold k0_pay2
  show FloatOps.sitofp .bf16 (IntOp.andi (IntOp.shrsi .vector
      (broadcastTo S256x8x512 (shapeCast S256x1x512 (shapeCast S256x512 x1 shapeCasts_S256x512_S256x512) shapeCasts_S256x512_S256x1x512)
        broadcasts_S256x1x512_S256x8x512 (ix3 q k n))
      (broadcastTo S256x8x512 (subi (broadcast S1x8x1 (7#32 : BitVec 32)) (iota .tc S1x8x1 32 [1] iota_S1x8x1_d1_w32))
        broadcasts_S1x8x1_S256x8x512 (ix3 q k n))) 1#32) = _
  rw [hw, ha]
  rfl

/-- The contraction of row `p` of slab `k` of the activations' block against the bits at position `k` of row `q` of the words' block. -/
def blockCol (x0 : Vec Ideal S64x8x512 .bf16) (x1 : Vec Ideal S256x512 .i32) (p : Fin 64) (q : Fin 256) (k : Fin 8) : EReal :=
  ∑ n : Fin 512, x0 (ix3 p k n) * ((bR (x1 (ix2 q n)) k.val : ℝ) : EReal)

/-- The stored value at `(p, q)` of the output block, from the four blocks the body reads. -/
theorem payload_apply (x0 : Vec Ideal S64x8x512 .bf16) (x1 : Vec Ideal S256x512 .i32) (x2 : Vec Ideal S1x256 .f32)
    (x3 : Vec Ideal S64x1 .f32) (p : Fin 64) (q : Fin 256) :
    k0_pay1 (F := Ideal) (k0_pay2 x1) (k0_pay3 x0) (k0_pay4 x1 x0) (k0_pay5 x0) x3 x2 (ix2 p q)
      = (Ideal.ofBits .f32 0x40000000#32
          * (0 + blockCol x0 x1 p q 0 + blockCol x0 x1 p q 1 + blockCol x0 x1 p q 2 + blockCol x0 x1 p q 3
              + blockCol x0 x1 p q 4 + blockCol x0 x1 p q 5 + blockCol x0 x1 p q 6 + blockCol x0 x1 p q 7)
          - x3 (ix2 p ⟨0, Nat.one_pos⟩)) * x2 (ix2 ⟨0, Nat.one_pos⟩ q) := by
  have hx : k0_pay3 (F := Ideal) x0 = x0 := shapeCast_self _ _
  have h3 : broadcastTo S64x256 (shapeCast S64x1 x3 shapeCasts_S64x1_S64x1) broadcasts_S64x1_S64x256 (ix2 p q)
      = x3 (ix2 p ⟨0, Nat.one_pos⟩) := by
    rw [shapeCast_self]
    refine broadcastTo_apply _ _ (ix2 p q) (ix2 p ⟨0, Nat.one_pos⟩) fun a => ?_
    match a with
    | ⟨0, _⟩ => show p.val = if (64 : ℕ) = 1 then 0 else p.val; rw [if_neg (by decide)]
    | ⟨1, _⟩ => show 0 = if (1 : ℕ) = 1 then 0 else q.val; rw [if_pos rfl]
  have h2 : broadcastTo S64x256 (shapeCast S1x256 x2 shapeCasts_S1x256_S1x256) broadcasts_S1x256_S64x256 (ix2 p q)
      = x2 (ix2 ⟨0, Nat.one_pos⟩ q) := by
    rw [shapeCast_self]
    refine broadcastTo_apply _ _ (ix2 p q) (ix2 ⟨0, Nat.one_pos⟩ q) fun a => ?_
    match a with
    | ⟨0, _⟩ => show 0 = if (1 : ℕ) = 1 then 0 else p.val; rw [if_pos rfl]
    | ⟨1, _⟩ => show q.val = if (256 : ℕ) = 1 then 0 else q.val; rw [if_neg (by decide)]
  unfold k0_pay1 k0_pay4 k0_pay5
  dsimp only
  rw [hx]
  simp only [mulf_apply, subf_apply, addf_apply, broadcast_apply]
  rw [h3, h2, contract_k 0 (by omega) _ _ x0 (k0_pay2 x1) p q, contract_k 1 (by omega) _ _ x0 (k0_pay2 x1) p q,
    contract_k 2 (by omega) _ _ x0 (k0_pay2 x1) p q, contract_k 3 (by omega) _ _ x0 (k0_pay2 x1) p q,
    contract_k 4 (by omega) _ _ x0 (k0_pay2 x1) p q, contract_k 5 (by omega) _ _ x0 (k0_pay2 x1) p q,
    contract_k 6 (by omega) _ _ x0 (k0_pay2 x1) p q, contract_k 7 (by omega) _ _ x0 (k0_pay2 x1) p q]
  simp only [bits_apply, Ideal.ofBits_def, Ideal.ofBits_zero_f32]
  rfl

end Cert.KernelIdeal.Payload

end
-- ==== Proof.KernelValue.lean ====
/-
  The kernel program's result array, entry by entry. Before the region the program re-lays the activations
  (`[64, 4096] → [64, 8, 512]`, column `8n + k` moving to `(k, n)`), views the word stream as `[11008, 512]` and the scales as a row,
  and takes the activations' row sums. The region runs 43 points; point `t` reads the whole re-laid activations and row
  sums, rows `256 t … 256 t + 255` of the words and of the scales, and writes columns `256 t … 256 t + 255` of the
  `[64, 11008]` result. Reading each block back through the program's index maps turns the stored value at `(p, q)` of
  point `t` into `BitLinear.kerEntry` at row `p` and output row `256 t + q`; the 43 column blocks tile the result, so the
  array after the run is `BitLinear.G` of the three arguments.
-/
import proofs.«402838_j22162031248001_2_alg».proof.Proof.Gen.KernelIdeal.Value
import proofs.«402838_j22162031248001_2_alg».proof.Proof.KernelPayload
import Idealize.ShloMosaic.Lib.StableHlo.Run
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Cert.KernelIdeal.Payload
open Idealize.ShloMosaic.ValueIdx Idealize.ShloMosaic.StableHlo Cert.BitLinear

variable (m : (ℓ : Loc nD τ sig) → Buf (Elt Ideal) ℓ) (ρ : Dev nD → PrngReg)

/-- The three argument arrays as launched on core `c`. -/
abbrev xArg (c : Dev nD) : S64x4096.Idx → EReal := m ((c : Thread nD τ).loc main_arg0)
abbrev wArg (c : Dev nD) : S5636096.Idx → BitVec 32 := m ((c : Thread nD τ).loc main_arg1)
abbrev sArg (c : Dev nD) : S11008x1.Idx → EReal := m ((c : Thread nD τ).loc main_arg2)

theorem V4_eq (c : Dev nD) : @Eq (S64x8x512.Idx → EReal) (V m c main_v4)
    (truncf (F := Ideal) .bf16 (transpose S64x8x512 [0, 2, 1] (shapeCast S64x512x8 (xArg m c) shapeCasts_S64x4096_S64x512x8) transposes_S64x512x8_S64x8x512_0_2_1) bitsLt_bf16_f32) := by
  dsimp only [Gen.V, Gen.hostOps0]; after_results <;> rfl

theorem V0_eq (c : Dev nD) : @Eq (S11008x512.Idx → BitVec 32) (V m c main_v0)
    (shapeCast S11008x512 (wArg m c) shapeCasts_S5636096_S11008x512) := by
  dsimp only [Gen.V, Gen.hostOps0]; after_results <;> rfl

theorem V1_eq (c : Dev nD) : @Eq (S1x11008.Idx → EReal) (V m c main_v1)
    (shapeCast S1x11008 (sArg m c) shapeCasts_S11008x1_S1x11008) := by
  dsimp only [Gen.V, Gen.hostOps0]; after_results <;> rfl

theorem V6_eq (c : Dev nD) : @Eq (S64x1.Idx → EReal) (V m c main_v6)
    (broadcastInDim S64x1 ![0] bcast_S64_S64x1_0 (Host.reduceAdd (F := Ideal) (xArg m c) (constant (F := Ideal) S_ .f32 0x00000000#32) reducesTo_S64x4096_S64_d1 h_S_)) := by
  dsimp only [Gen.V, Gen.hostOps0]; after_results <;> rfl

/-! ## The arrays the region finds, at an index -/

/-- The re-laid activations: `[64, 4096] → [64, 512, 8] → [64, 8, 512]` puts column `8n + k` at `(k, n)`. -/
theorem V4_apply (c : Dev nD) (p : Fin 64) (k : Fin 8) (n : Fin 512) :
    (V m c main_v4 : S64x8x512.Idx → EReal) (ix3 p k n) = xN (xArg m c) p.val (n.val * 8 + k.val) := by
  rw [V4_eq]
  rw [truncf_apply]
  refine (transpose_apply [0, 2, 1] _ _ (ix3 p k n) (ix3 p n k) (fun b => ?_)).trans ?_
  · match b with
    | ⟨0, _⟩ => rfl
    | ⟨1, _⟩ => rfl
    | ⟨2, _⟩ => rfl
  refine (shapeCast_apply _ _ (ix3 p n k) (ix2 p ⟨n.val * 8 + k.val, by omega⟩) ?_).trans ?_
  · rw [Shape.rowMajor_val_two, Shape.rowMajor_val_three]
    show p.val * 4096 + (n.val * 8 + k.val) = (p.val * 512 + n.val) * 8 + k.val
    omega
  · exact xN_eq _ _

/-- The packed words viewed `[11008, 512]`: row `r`, word `n` is word `512 r + n` of the stream. -/
theorem V0_apply (c : Dev nD) (r : Fin 11008) (n : Fin 512) :
    (V m c main_v0 : S11008x512.Idx → BitVec 32) (ix2 r n) = wN (wArg m c) (r.val * 512 + n.val) := by
  rw [V0_eq]
  refine (shapeCast_apply _ _ (ix2 r n) (ix1 ⟨r.val * 512 + n.val, by omega⟩) ?_).trans ?_
  · rw [Shape.rowMajor_val_one, Shape.rowMajor_val_two]
    rfl
  · exact wN_eq _ _

/-- The scales laid along a row. -/
theorem V1_apply (c : Dev nD) (o : Fin 11008) :
    (V m c main_v1 : S1x11008.Idx → EReal) (ix2 ⟨0, Nat.one_pos⟩ o) = sN (sArg m c) o.val := by
  rw [V1_eq]
  refine (shapeCast_apply _ _ (ix2 ⟨0, Nat.one_pos⟩ o) (ix2 o ⟨0, Nat.one_pos⟩) ?_).trans ?_
  · rw [Shape.rowMajor_val_two, Shape.rowMajor_val_two]
    show o.val * 1 + 0 = 0 * 11008 + o.val
    omega
  · exact sN_eq _ _

/-- The row sums of the activations, as a column: each is added from zero over the 4096 columns. -/
theorem V6_apply (c : Dev nD) (p : Fin 64) :
    (V m c main_v6 : S64x1.Idx → EReal) (ix2 p ⟨0, Nat.one_pos⟩) = 0 + ∑ i : Fin 4096, xN (xArg m c) p.val i.val := by
  rw [V6_eq]
  refine (broadcastInDim_apply _ _ _ (ix2 p ⟨0, Nat.one_pos⟩) (ix1 p) (fun a => ?_)).trans ?_
  · match a with
    | ⟨0, _⟩ => show p.val = if (64 : ℕ) = 1 then 0 else p.val; rw [if_neg (by decide)]
  show Ideal.hostReduceAdd reducesTo_S64x4096_S64_d1 (xArg m c) (Ideal.ofBits .f32 0x00000000#32) (ix1 p) = _
  have hR : S64x4096.Reduces [1] S64 := by decide
  rw [Ideal.hostReduceAdd_single reducesTo_S64x4096_S64_d1 hR, Ideal.ofBits_zero_f32]
  refine congrArg (0 + ·) (Finset.sum_congr rfl fun i _ => ?_)
  exact (congrArg (xArg m c) (Cert.LibAttnOps.lift_row (a := 64) (b := 4096) hR p i)).trans (xN_eq _ _)

/-! ## The windows' blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the activations and their row sums stay put, the words, the scales and the
    output move one block of 256 output rows per point. -/
theorem idx_facts : ∀ t : Fin cfg0.N, win0_0.index t (0 : Fin 3) = 0 ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

theorem t_lt (t : Fin cfg0.N) : t.val < 43 := by
  have h1 := t.isLt
  have h2 : cfg0.N = 43 := N_0
  omega

/-- The activations' block is the whole re-laid array. -/
theorem iblk0_apply (c : Dev nD) (t : Fin cfg0.N) (p : Fin 64) (k : Fin 8) (n : Fin 512) :
    (iblk m c 0 t : Vec Ideal S64x8x512 .bf16) (ix3 p k n) = xN (xArg m c) p.val (n.val * 8 + k.val) := by
  obtain ⟨e0, e1, e2, -⟩ := idx_facts t
  unfold iblk
  rw [View.read_apply]
  show (V m c main_v4 : S64x8x512.Idx → EReal) _ = _
  rw [← V4_apply m c p k n]
  refine congrArg (V m c main_v4 : S64x8x512.Idx → EReal) (funext fun a => Fin.ext ?_)
  match a with
  | ⟨0, _⟩ => show win0_0.index t (0 : Fin 3) * 64 + 1 * p.val = p.val; rw [e0]; omega
  | ⟨1, _⟩ => show win0_0.index t (1 : Fin 3) * 8 + 1 * k.val = k.val; rw [e1]; omega
  | ⟨2, _⟩ => show win0_0.index t (2 : Fin 3) * 512 + 1 * n.val = n.val; rw [e2]; omega

/-- The words' block at point `t` is rows `256 t … 256 t + 255`. -/
theorem iblk1_apply (c : Dev nD) (t : Fin cfg0.N) (q : Fin 256) (n : Fin 512) :
    (iblk m c 1 t : Vec Ideal S256x512 .i32) (ix2 q n) = wN (wArg m c) ((t.val * 256 + q.val) * 512 + n.val) := by
  obtain ⟨-, -, -, e0, e1, -⟩ := idx_facts t
  have ht := t_lt t
  unfold iblk
  rw [View.read_apply]
  show (V m c main_v0 : S11008x512.Idx → BitVec 32) _ = _
  rw [← V0_apply m c ⟨t.val * 256 + q.val, by omega⟩ n]
  refine congrArg (V m c main_v0 : S11008x512.Idx → BitVec 32) (funext fun a => Fin.ext ?_)
  match a with
  | ⟨0, _⟩ => show win0_1.index t (0 : Fin 2) * 256 + 1 * q.val = t.val * 256 + q.val; rw [e0]; omega
  | ⟨1, _⟩ => show win0_1.index t (1 : Fin 2) * 512 + 1 * n.val = n.val; rw [e1]; omega

/-- The scales' block at point `t`. -/
theorem iblk2_apply (c : Dev nD) (t : Fin cfg0.N) (q : Fin 256) :
    (iblk m c 2 t : Vec Ideal S1x256 .f32) (ix2 ⟨0, Nat.one_pos⟩ q) = sN (sArg m c) (t.val * 256 + q.val) := by
  obtain ⟨-, -, -, -, -, e0, e1, -⟩ := idx_facts t
  have ht := t_lt t
  unfold iblk
  rw [View.read_apply]
  show (V m c main_v1 : S1x11008.Idx → EReal) _ = _
  rw [← V1_apply m c ⟨t.val * 256 + q.val, by omega⟩]
  refine congrArg (V m c main_v1 : S1x11008.Idx → EReal) (funext fun a => Fin.ext ?_)
  match a with
  | ⟨0, _⟩ => show win0_2.index t (0 : Fin 2) * 1 + 1 * 0 = 0; rw [e0]
  | ⟨1, _⟩ => show win0_2.index t (1 : Fin 2) * 256 + 1 * q.val = t.val * 256 + q.val; rw [e1]; omega

/-- The row sums' block is the whole column. -/
theorem iblk3_apply (c : Dev nD) (t : Fin cfg0.N) (p : Fin 64) :
    (iblk m c 3 t : Vec Ideal S64x1 .f32) (ix2 p ⟨0, Nat.one_pos⟩) = 0 + ∑ i : Fin 4096, xN (xArg m c) p.val i.val := by
  obtain ⟨-, -, -, -, -, -, -, e0, e1, -⟩ := idx_facts t
  unfold iblk
  rw [View.read_apply]
  show (V m c main_v6 : S64x1.Idx → EReal) _ = _
  rw [← V6_apply m c p]
  refine congrArg (V m c main_v6 : S64x1.Idx → EReal) (funext fun a => Fin.ext ?_)
  match a with
  | ⟨0, _⟩ => show win0_3.index t (0 : Fin 2) * 64 + 1 * p.val = p.val; rw [e0]; omega
  | ⟨1, _⟩ => show win0_3.index t (1 : Fin 2) * 1 + 1 * 0 = 0; rw [e1]

/-! ## What a point writes back -/

/-- One bit position's contraction over a block is that of the arrays, at the block's output row. -/
theorem blockCol_eq (c : Dev nD) (t : Fin cfg0.N) (p : Fin 64) (q : Fin 256) (k : Fin 8) :
    blockCol (iblk m c 0 t) (iblk m c 1 t) p q k = colSum (xArg m c) (wArg m c) p.val (t.val * 256 + q.val) k.val := by
  unfold blockCol colSum
  refine Finset.sum_congr rfl fun n _ => ?_
  rw [iblk0_apply m c t p k n, iblk1_apply m c t q n]

/-- Point `t` writes back block `t` of the layer's function of the three arguments. -/
theorem flushed_eq (c : Dev nD) (t : Fin cfg0.N) :
    (dats m 0 c).flushed 4 t = ((cfg0.win 4).blk t).view.read (Elt Ideal) (G (xArg m c) (wArg m c) (sArg m c)) := by
  obtain ⟨-, -, -, -, -, -, -, -, -, e0, e1⟩ := idx_facts t
  rw [flushed4]
  unfold out0_4
  rw [View.canon_unit_zero hz2]
  simp only [View.ld_unit_zero (S := S256x512) hz2, View.ld_unit_zero (S := S64x8x512) hz3, View.ld_unit_zero (S := S64x1) hz2,
    View.ld_unit_zero (S := S1x256) hz2]
  funext y
  obtain ⟨p, q, rfl⟩ : ∃ (p : Fin 64) (q : Fin 256), y = ix2 p q := ⟨y 0, y 1, eq_ix2 y⟩
  show k0_pay1 (F := Ideal) (k0_pay2 (iblk m c 1 t)) (k0_pay3 (iblk m c 0 t)) (k0_pay4 (iblk m c 1 t) (iblk m c 0 t))
      (k0_pay5 (iblk m c 0 t)) (iblk m c 3 t) (iblk m c 2 t) (ix2 p q)
    = kerEntry (xArg m c) (wArg m c) (sArg m c) (win0_4.index t (0 : Fin 2) * 64 + 1 * p.val) (win0_4.index t (1 : Fin 2) * 256 + 1 * q.val)
  rw [e0, e1, show 0 * 64 + 1 * p.val = p.val by omega, show t.val * 256 + 1 * q.val = t.val * 256 + q.val by omega]
  refine (payload_apply (iblk m c 0 t) (iblk m c 1 t) (iblk m c 2 t) (iblk m c 3 t) p q).trans ?_
  simp only [blockCol_eq]
  rw [iblk3_apply, iblk2_apply]
  rfl

/-! ## The blocks tile the result -/

/-- An index of the result is in point `t`'s block iff each coordinate is in the block's range. -/
theorem mem_blk (t : Fin cfg0.N) (i : S64x11008.Idx) :
    i ∈ ((cfg0.win 4).blk t).view.set ↔ ∀ a : Fin 2, win0_4.index t a * S64x256.size a ≤ (i a).val
      ∧ (i a).val < win0_4.index t a * S64x256.size a + S64x256.size a := by
  show i ∈ ((View.whole main_v7).slice (win0_4.rect t)).set ↔ _
  rw [View.set_slice_whole, Rect.mem_set_unit]
  exact Iff.rfl

/-- The result array after the run: column `o` lies in the block of point `o / 256`. -/
theorem final (c : Dev nD) : (dats m 0 c).arrAt 4 cfg0.N = G (xArg m c) (wArg m c) (sArg m c) :=
  (dats m 0 c).arrAt_eq_of_cover 4 (G (xArg m c) (wArg m c) (sArg m c)) (fun t _ => flushed_eq m c t) fun i => by
    have h0 : (i 0).val < 64 := (i 0).isLt
    have h1 : (i 1).val < 11008 := (i 1).isLt
    have hN : cfg0.N = 43 := N_0
    have hlt : (i 1).val / 256 < cfg0.N := by omega
    obtain ⟨-, -, -, -, -, -, -, -, -, e0, e1⟩ := idx_facts ⟨(i 1).val / 256, hlt⟩
    refine ⟨⟨(i 1).val / 256, hlt⟩, flush0_4 _, ?_⟩
    rw [mem_blk]
    intro a
    match a with
    | ⟨0, _⟩ =>
      show win0_4.index ⟨(i 1).val / 256, hlt⟩ (0 : Fin 2) * 64 ≤ (i 0).val
        ∧ (i 0).val < win0_4.index ⟨(i 1).val / 256, hlt⟩ (0 : Fin 2) * 64 + 64
      rw [e0]; omega
    | ⟨1, _⟩ =>
      show win0_4.index ⟨(i 1).val / 256, hlt⟩ (1 : Fin 2) * 256 ≤ (i 1).val
        ∧ (i 1).val < win0_4.index ⟨(i 1).val / 256, hlt⟩ (1 : Fin 2) * 256 + 256
      rw [e1]
      show (i 1).val / 256 * 256 ≤ (i 1).val ∧ (i 1).val < (i 1).val / 256 * 256 + 256
      omega

/-- The run, read: the result array at the layer's function of the arguments, the arguments unchanged. -/
theorem run : θ_run defs (onTc (τ := τ) (main (F := Ideal))) ⟨m, fun _ => 0, ρ⟩ fun r => ∀ c : Dev nD,
      r.2.mem ((c : Thread nD τ).loc main_v7) = G (xArg m c) (wArg m c) (sArg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Hand

end
-- ==== Proof.lean ====
/-
  A one-bit linear layer: `out[t, o] = ∑ᵢ x[t, i] · ((2 bᵢ − 1) · s[o])`, the signs `2b − 1` unpacked from a stream of words that
  hold eight bits each (Proof/Spec.lean). The reference forms the scaled sign matrix and contracts against it
  (Proof/RefValue.lean). The kernel never forms a sign: per block of 256 output rows it contracts the activations against the
  bits themselves, one bit position at a time, doubles the total, takes off the activations' row sums and scales
  (Proof/KernelPayload.lean for one stored entry, Proof/KernelValue.lean for the result array). The two agree by
  `x · ((2b − 1) · s) = (2 (x · b) − x) · s` summed over the columns, a use of distributivity that needs finite activations
  and scales; the precondition says exactly that (Proof/Finite.lean), and the bits are `0` or `1` whatever the words are.
  The ideal pass rewrote nothing, so the kernel's idealization is its own text.
-/
import proofs.«402838_j22162031248001_2_alg».proof.Defs
import proofs.«402838_j22162031248001_2_alg».proof.Proof.Gen.Kernel
import proofs.«402838_j22162031248001_2_alg».proof.Proof.Gen.Kernel.Skeleton
import proofs.«402838_j22162031248001_2_alg».proof.Proof.Gen.Kernel.Launch
import proofs.«402838_j22162031248001_2_alg».proof.Proof.Gen.Kernel.Points
import proofs.«402838_j22162031248001_2_alg».proof.Proof.Gen.Kernel.Frame
import proofs.«402838_j22162031248001_2_alg».proof.Proof.Gen.KernelIdeal
import proofs.«402838_j22162031248001_2_alg».proof.Proof.Gen.KernelIdeal.Skeleton
import proofs.«402838_j22162031248001_2_alg».proof.Proof.Gen.KernelIdeal.Launch
import proofs.«402838_j22162031248001_2_alg».proof.Proof.Gen.KernelIdeal.Points
import proofs.«402838_j22162031248001_2_alg».proof.Proof.Gen.KernelIdeal.Frame
import proofs.«402838_j22162031248001_2_alg».proof.Proof.Gen.ReferenceIdeal
import proofs.«402838_j22162031248001_2_alg».proof.Proof.Gen.Pre_finite_inputs
import proofs.«402838_j22162031248001_2_alg».proof.Proof.Gen.KernelIdeal.Value
import proofs.«402838_j22162031248001_2_alg».proof.Proof.Gen.ReferenceIdeal.Run
import proofs.«402838_j22162031248001_2_alg».proof.Proof.Gen.ReferenceIdeal.Read
import proofs.«402838_j22162031248001_2_alg».proof.Proof.Spec
import proofs.«402838_j22162031248001_2_alg».proof.Proof.Finite
import proofs.«402838_j22162031248001_2_alg».proof.Proof.RefValue
import proofs.«402838_j22162031248001_2_alg».proof.Proof.KernelValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the layer reached through the bits and the reference's at
    the layer contracted against the signs; on the finite inputs the precondition admits these are one array. -/
theorem algebraic : Cert.algebraic_KernelIdeal_ReferenceIdeal := by
  intro m ρ m' ρ' hpre hagree
  refine ⟨fun c => Cert.BitLinear.G (Cert.KernelIdeal.Hand.xArg m c) (Cert.KernelIdeal.Hand.wArg m c) (Cert.KernelIdeal.Hand.sArg m c),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2]
  obtain ⟨hx, hs⟩ := Cert.Pre_finite_inputs.Finite.finite_of_pre _ _ _ (hpre c)
  funext j
  rw [Cert.ReferenceIdeal.RefValue.ref_entry]
  exact Cert.BitLinear.entries_eq _ _ _ hx hs _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
